-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S8192x512 .f32) (main_arg3 : FVec F S8192x512 .f32) (main_arg4 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_v13 main_v16
-- ==== Kernel.lean ====
abbrev S8192x512 : Shape := ⟨2, ![8192, 512]⟩
abbrev S512x512 : Shape := ⟨2, ![512, 512]⟩
abbrev S1024x512 : Shape := ⟨2, ![1024, 512]⟩
abbrev S8192x8192 : Shape := ⟨2, ![8192, 8192]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512x512, .f32⟩
  | .hbm, ⟨5, _⟩ => ⟨S8192x512, .bf16⟩
  | .hbm, ⟨6, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1024, .f32⟩
  | .local _ .vmem, ⟨14, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  dot_S1024x512_S512x512_S1024x512_1_1_0_0_n_n_wf : DotDims.WF S1024x512 S512x512 S1024x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .f32 = 32 ∨ (Rect.block (s := S8192x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S512x512 : Shape := ⟨2, ![512, 512]⟩
abbrev S8192x8192 : Shape := ⟨2, ![8192, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  dot_S8192x512_S512x512_S8192x512_1_1_0_0_n_n_wf : DotDims.WF S8192x512 S512x512 S8192x512 [1] [1] [0] [0] [] []
  dot_S8192x512_S8192x512_S8192x8192_1_1_0_0_n_n_wf : DotDims.WF S8192x512 S8192x512 S8192x8192 [1] [1] [0] [0] [] []

variable [Facts₀]

def dot_S8192x512_S512x512_S8192x512_1_1_0_0_n_n : DotDims S8192x512 S512x512 S8192x512 where
  lhsContracting := [1]
  rhsContracting := [1]
  lhsNonContracting := [0]
  rhsNonContracting := [0]
  lhsBatch := []
  rhsBatch := []
  wf := dot_S8192x512_S512x512_S8192x512_1_1_0_0_n_n_wf
def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Spec.lean ====
/-
  The bilinear discriminator as one function of the argument arrays, index by index, on the extended reals.

  With `xd = x ⊙ mask_x` and `yd = y ⊙ mask_y` (the inverted-dropout products, entry by entry),
    `proj x mask_x W  [n, k] = ∑ d, xd[n, d] · W[k, d]`            (the linear layer, "xd · Wᵀ"),
    `score xt y mask_y [n, m] = σ (∑ k, xt[n, k] · yd[m, k])`       (the pairwise scores "xt · ydᵀ", then the logistic σ),
  and the result is `score (proj x mask_x W) y mask_y`. Both programs group the two sums in exactly this way, so no
  law of arithmetic is needed to join them, and nothing here asks the inputs to be finite.
-/
import Idealize.ShloMosaic.PureOps.Ideal
import Idealize.ShloMosaic.Lib.ValueIdx

noncomputable section

namespace Cert.Bilinear

open Idealize.ShloMosaic Idealize.ShloMosaic.ValueIdx
open scoped BigOperators

/-- The shapes of the problem: 8192 rows on each side, feature width 512. -/
abbrev SRows : Shape := ⟨2, ![8192, 512]⟩
abbrev SWeight : Shape := ⟨2, ![512, 512]⟩
abbrev SScores : Shape := ⟨2, ![8192, 8192]⟩

/-- The projected left rows: entry (n, k) is the product of row n of `x ⊙ mask_x` with row k of `W`. -/
def proj (x mx : SRows.Idx → EReal) (W : SWeight.Idx → EReal) : SRows.Idx → EReal := fun i =>
  ∑ d : Fin 512, (x (ix2 (i 0 : Fin 8192) d) * mx (ix2 (i 0 : Fin 8192) d)) * W (ix2 (i 1 : Fin 512) d)

/-- The scores: entry (n, m) is the logistic of the product of row n of `xt` with row m of `y ⊙ mask_y`. -/
def score (xt y my : SRows.Idx → EReal) : SScores.Idx → EReal := fun i =>
  Ideal.logistic (∑ k : Fin 512, xt (ix2 (i 0 : Fin 8192) k) * (y (ix2 (i 1 : Fin 8192) k) * my (ix2 (i 1 : Fin 8192) k)))

theorem proj_apply (x mx : SRows.Idx → EReal) (W : SWeight.Idx → EReal) (n : Fin 8192) (k : Fin 512) :
    proj x mx W (ix2 n k) = ∑ d : Fin 512, (x (ix2 n d) * mx (ix2 n d)) * W (ix2 k d) := rfl

theorem score_apply (xt y my : SRows.Idx → EReal) (n m : Fin 8192) :
    score xt y my (ix2 n m) = Ideal.logistic (∑ k : Fin 512, xt (ix2 n k) * (y (ix2 m k) * my (ix2 m k))) := rfl

end Cert.Bilinear

end
-- ==== Proof.LibDotLastAxes.lean ====
/-
  A matrix product that contracts the LAST axis of both operands — an M×K matrix against an N×K matrix, the product
  "A · Bᵀ" — read at an entry. The contraction index of such a product has one coordinate, which runs over the shared
  extent K, so the sum over the contraction index is the plain sum over `q : Fin K` of `l[p, q] * r[c, q]`, where
  (p, c) is the entry of the result. Stated for ANY dimension record with these dimension numbers (contracting axes
  [1] and [1], free axes [0] and [0], no batch axis), so that one lemma serves a kernel's block product, the same
  product over whole arrays on the host, and products of other extents.
-/
import Idealize.ShloMosaic.PureOps.Ideal.Laws
import Idealize.ShloMosaic.Lib.ValueIdx

namespace Cert.LibDotLastAxes

open Idealize.ShloMosaic Idealize.ShloMosaic.ValueIdx
open scoped BigOperators

variable {M K N : Nat}

/-- The dimension numbers of "A · Bᵀ": each operand contracts its axis 1 and keeps its axis 0; no batch axis. -/
structure LastAxes (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![M, K]⟩ ⟨2, ![N, K]⟩ ⟨2, ![M, N]⟩}

/-- One contracted axis. -/
theorem LastAxes.rank_contr (h : LastAxes d) : d.contr.rank = 1 := by
  rw [d.rank_contr, h.lc]; rfl

/-- Its extent is the operands' shared last extent. -/
theorem LastAxes.size_contr (h : LastAxes d) : d.contr.size ⟨0, by rw [h.rank_contr]; exact Nat.one_pos⟩ = K := by
  obtain ⟨lc, rc, ln, rn, lb, rb, wf⟩ := d
  obtain ⟨h1, h2, h3, h4, h5, h6⟩ := h
  dsimp only at h1 h2 h3 h4 h5 h6
  subst h1 h2 h3 h4 h5 h6
  rfl

/-- The left operand's row is the result's row. -/
theorem LastAxes.lhs_row (h : LastAxes d) (j : (⟨2, ![M, N]⟩ : Shape).Idx) (k : d.contr.Idx) :
    (d.lhsIdx j k 0).val = (j 0).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.lhsIdx
  rw [dif_neg (by simp), dif_pos (by simp)]
  rfl

/-- The left operand's column is the contraction position. -/
theorem LastAxes.lhs_col (h : LastAxes d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the result's column. -/
theorem LastAxes.rhs_row (h : LastAxes d) (j : (⟨2, ![M, N]⟩ : Shape).Idx) (k : d.contr.Idx) :
    (d.rhsIdx j k 0).val = (j 1).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.rhsIdx
  rw [dif_neg (by simp), dif_pos (by simp)]
  rfl

/-- The right operand's column is the contraction position. -/
theorem LastAxes.rhs_col (h : LastAxes d) (j : (⟨2, ![M, N]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared extent: entry (p, c) of "A · Bᵀ" is `∑ q, l[p, q] * r[c, q]`. -/
theorem LastAxes.sum_contr (h : LastAxes d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k)
      = ∑ q : Fin K, l (ix2 (j 0 : Fin M) q) * r (ix2 (j 1 : Fin N) q) := by
  rw [← Equiv.sum_comp (contrEquiv1 d K h.rank_contr h.size_contr).symm]
  refine Finset.sum_congr rfl fun q _ => ?_
  have hq := contrEquiv1_symm_val d K h.rank_contr h.size_contr q
  have el : d.lhsIdx j ((contrEquiv1 d K h.rank_contr h.size_contr).symm q) = ix2 (j 0 : Fin M) q := by
    funext a; apply Fin.ext
    match a with
    | ⟨0, _⟩ => exact h.lhs_row _ _
    | ⟨1, _⟩ => exact (h.lhs_col _ _).trans hq
  have er : d.rhsIdx j ((contrEquiv1 d K h.rank_contr h.size_contr).symm q) = ix2 (j 1 : Fin N) q := by
    funext a; apply Fin.ext
    match a with
    | ⟨0, _⟩ => exact h.rhs_row _ _
    | ⟨1, _⟩ => exact (h.rhs_col _ _).trans hq
  exact congrArg₂ (· * ·) (congrArg l el) (congrArg r er)

/-- A kernel's product into a zero accumulator, at an entry. -/
theorem LastAxes.matmul_zero_apply (h : LastAxes d) {φ₁ φ₂ : FTy} (prec : Option ContractPrecision)
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) := by
  show FloatOps.matmul d prec l r (constant ⟨2, ![M, N]⟩ .f32 0x00000000#32) (ix2 p c) = _
  rw [Ideal.matmul_constant_zero_apply]
  exact h.sum_contr l r (ix2 p c)

/-- The host's product, at an entry. -/
theorem LastAxes.dotGeneral_apply (h : LastAxes d) {φ₁ φ₂ : FTy} (prec : Option ContractPrecision)
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) := by
  show FloatOps.dotGeneral d prec _ l r (ix2 p c) = _
  rw [Ideal.dotGeneral_apply]
  exact h.sum_contr l r (ix2 p c)

end Cert.LibDotLastAxes
-- ==== Proof.KernelValue.lean ====
/-
  What the kernel leaves in its arrays, on the extended reals.

  The first pallas_call walks 8 row blocks of 1024 rows. At block b it multiplies the block of `x` by the block of
  `mask_x`, entry by entry, and takes the product of that 1024×512 block with the whole weight, contracting the last
  axis of both: entry (p, k) of what it writes back is `∑ d, xd[1024·b + p, d] · W[k, d]`, which is entry
  (1024·b + p, k) of `proj x mask_x W`. The 8 blocks tile the rows, so the intermediate array ends holding
  `proj x mask_x W` (the narrowing to bf16 and the f32 accumulator do not change an extended real).

  The second pallas_call walks an 8×8 grid of 1024×1024 tiles of the scores. At tile (a, b) it reads row block a of the
  intermediate array and row block b of `y` and `mask_y`, and entry (p, q) of what it writes back is the logistic
  of `∑ k, xt[1024·a + p, k] · yd[1024·b + q, k]`: entry (1024·a + p, 1024·b + q) of `score xt y mask_y`. The 64
  tiles cover the scores.
-/
import proofs.«109597_j32392643347090_1_alg».proof.Proof.Gen.KernelIdeal.Frame
import proofs.«109597_j32392643347090_1_alg».proof.Proof.Spec
import proofs.«109597_j32392643347090_1_alg».proof.Proof.LibDotLastAxes
import Idealize.ShloMosaic.Lib.Pipeline.Value
import Idealize.ShloMosaic.Lib.ValueIdx

set_option maxRecDepth 16384

noncomputable section

namespace Cert.Bilinear.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.LibDotLastAxes
open scoped BigOperators

theorem hz : (![0, 0] : Fin 2 → Nat) = fun _ => 0 := funext fun a => by fin_cases a <;> rfl

/-- Both block products contract the last axis of both operands. -/
theorem lastAxes0 : LastAxes (M := 1024) (K := 512) (N := 512) dot_S1024x512_S512x512_S1024x512_1_1_0_0_n_n := ⟨rfl, rfl, rfl, rfl, rfl, rfl⟩
theorem lastAxes1 : LastAxes (M := 1024) (K := 512) (N := 1024) dot_S1024x512_S1024x512_S1024x1024_1_1_0_0_n_n := ⟨rfl, rfl, rfl, rfl, rfl, rfl⟩

/-- The first body's stored value at entry (p, k): the masked row p against row k of the weight. -/
theorem pay0_apply (x0 x1 : Vec Ideal S1024x512 .f32) (x2 : Vec Ideal S512x512 .f32) (p : Fin 1024) (k : Fin 512) :
    k0_pay1 x0 x1 x2 (ix2 p k) = ∑ d : Fin 512, (x0 (ix2 p d) * x1 (ix2 p d)) * x2 (ix2 k d) := by
  unfold k0_pay1
  exact lastAxes0.matmul_zero_apply none _ _ p k

/-- The second body's stored value at entry (p, q): the logistic of projected row p against masked row q. -/
theorem pay1_apply (y0 y1 : Vec Ideal S1024x512 .f32) (xt : Vec Ideal S1024x512 .bf16) (p q : Fin 1024) :
    k1_pay1 y0 y1 xt (ix2 p q) = Ideal.logistic (∑ k : Fin 512, xt (ix2 p k) * (y0 (ix2 q k) * y1 (ix2 q k))) := by
  unfold k1_pay1
  refine congrArg Ideal.logistic ?_
  refine (lastAxes1.matmul_zero_apply none _ _ p q).trans (Finset.sum_congr rfl fun k _ => ?_)
  rw [shapeCast_self]
  rfl

/-! ## The first pallas_call: the projection -/

section Region0
variable (V : (c : Dev nD) → (b : Ref sig .tc) → Buf (Elt Ideal) ((c : Thread nD τ).loc b))

/-- The printed index maps over the 8 points: the row-blocked windows sit at block (t, 0), the weight at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arrays the first pallas_call reads, as the region finds them, at their literal types. -/
abbrev xArr (c : Dev nD) : SRows.Idx → EReal := V c main_arg0
abbrev mxArr (c : Dev nD) : SRows.Idx → EReal := V c main_arg2
abbrev wArr (c : Dev nD) : SWeight.Idx → EReal := V c main_arg4

/-- What point t writes back is block t of the projection of the arrays the region finds. -/
theorem flushed0 (c : Dev nD) (t : Fin cfg0.N) :
    (dat0 V c).flushed 3 t = ((cfg0.win 3).blk t).view.read (Elt Ideal) (Cert.Bilinear.proj (xArr V c) (mxArr V c) (wArr V c)) := by
  show (cfg0.win 3).cut (grid0.coords t) ((dat0 V c).after 3 t) = _
  rw [after0_3]
  unfold out0_3
  rw [View.canon_unit_zero hz]
  simp only [View.ld_unit_zero (S := S1024x512) hz, View.ld_unit_zero (S := S512x512) hz]
  obtain ⟨e00, e01, e10, e11, e20, e21, e30, e31⟩ := idx_facts0 t
  funext j
  obtain ⟨p, k, rfl⟩ : ∃ (p : Fin 1024) (k : Fin 512), j = ix2 p k := ⟨j 0, j 1, eq_ix2 j⟩
  show k0_pay1 (iblk0 V c 0 t) (iblk0 V c 1 t) (iblk0 V c 2 t) (ix2 p k)
    = Cert.Bilinear.proj (xArr V c) (mxArr V c) (wArr V c) (((cfg0.win 3).blk t).view.emb (ix2 p k))
  refine (pay0_apply (iblk0 V c 0 t) (iblk0 V c 1 t) (iblk0 V c 2 t) p k).trans ?_
  unfold Cert.Bilinear.proj
  refine Finset.sum_congr rfl fun d _ => ?_
  have h0 : ((cfg0.win 0).blk t).view.emb (ix2 p d) = ix2 ((((cfg0.win 3).blk t).view.emb (ix2 p k)) 0 : Fin 8192) d := by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 512 + 1 * d.val = d.val; omega
  have h1 : ((cfg0.win 1).blk t).view.emb (ix2 p d) = ix2 ((((cfg0.win 3).blk t).view.emb (ix2 p k)) 0 : Fin 8192) d := by
    funext a; apply Fin.ext
    match a with
    | ⟨0, _⟩ => show win0_1.index t (0 : Fin 2) * 1024 + 1 * p.val = win0_3.index t (0 : Fin 2) * 1024 + 1 * p.val; omega
    | ⟨1, _⟩ => show win0_1.index t (1 : Fin 2) * 512 + 1 * d.val = d.val; omega
  have h2 : ((cfg0.win 2).blk t).view.emb (ix2 k d) = ix2 ((((cfg0.win 3).blk t).view.emb (ix2 p k)) 1 : Fin 512) d := by
    funext a; apply Fin.ext
    match a with
    | ⟨0, _⟩ => show win0_2.index t (0 : Fin 2) * 512 + 1 * k.val = win0_3.index t (1 : Fin 2) * 512 + 1 * k.val; omega
    | ⟨1, _⟩ => show win0_2.index t (1 : Fin 2) * 512 + 1 * d.val = d.val; omega
  exact congrArg₂ (· * ·) (congrArg₂ (· * ·) (congrArg (xArr V c) h0) (congrArg (mxArr V c) h1)) (congrArg (wArr V c) h2)

/-- An index of the intermediate array is in point t's block iff each coordinate is in the block's range on its axis. -/
theorem mem_blk0 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0).slice (win0_3.rect t)).set ↔ _
  rw [View.set_slice_whole, Rect.mem_set_unit]
  exact Iff.rfl

/-- The 8 row blocks tile the intermediate array, so it ends holding the projection. -/
theorem final0 (c : Dev nD) : (dat0 V c).arrAt 3 cfg0.N = Cert.Bilinear.proj (xArr V c) (mxArr V c) (wArr V c) :=
  (dat0 V c).arrAt_eq_of_cover 3 _ (fun t _ => flushed0 V c t) fun i => by
    have hi0 : (i 0).val < 8192 := (i 0).isLt
    have hi1 : (i 1).val < 512 := (i 1).isLt
    obtain ⟨t, ht⟩ : ∃ t : Fin cfg0.N, t.val = (i 0).val / 1024 := ⟨⟨(i 0).val / 1024, by rw [show cfg0.N = 8 from N_0]; omega⟩, rfl⟩
    obtain ⟨-, -, -, -, -, -, e30, e31⟩ := idx_facts0 t
    refine ⟨t, flush0_3 t, ?_⟩
    rw [mem_blk0]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 512 ≤ (i 1).val ∧ (i 1).val < win0_3.index t (1 : Fin 2) * 512 + 512; omega

end Region0

/-! ## The second pallas_call: the scores -/

section Region1
variable (V : (c : Dev nD) → (b : Ref sig .tc) → Buf (Elt Ideal) ((c : Thread nD τ).loc b))

/-- The arrays the second pallas_call reads, as the region finds them, at their literal types. -/
abbrev xtArr (c : Dev nD) : SRows.Idx → EReal := V c main_v0
abbrev yArr (c : Dev nD) : SRows.Idx → EReal := V c main_arg1
abbrev myArr (c : Dev nD) : SRows.Idx → EReal := V c main_arg3

/-- The printed index maps over the 64 points, point t being tile (t / 8, t % 8): the projected rows sit at block
    (t / 8, 0), the right side and its mask at block (t % 8, 0), the scores' tile at (t / 8, t % 8). -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = t.val % 8 :=
  (by decide +kernel : ∀ t : Fin grid1.N, _)

/-- What point t writes back is tile t of the scores of the arrays the region finds. -/
theorem flushed1 (c : Dev nD) (t : Fin cfg1.N) :
    (dat1 V c).flushed 3 t = ((cfg1.win 3).blk t).view.read (Elt Ideal) (Cert.Bilinear.score (xtArr V c) (yArr V c) (myArr V c)) := by
  show (cfg1.win 3).cut (grid1.coords t) ((dat1 V c).after 3 t) = _
  rw [after1_3]
  unfold out1_3
  rw [View.canon_unit_zero hz]
  simp only [View.ld_unit_zero (S := S1024x512) hz]
  obtain ⟨e00, e01, e10, e11, e20, e21, e30, e31⟩ := idx_facts1 t
  funext j
  obtain ⟨p, q, rfl⟩ : ∃ (p q : Fin 1024), j = ix2 p q := ⟨j 0, j 1, eq_ix2 j⟩
  show k1_pay1 (iblk1 V c 1 t) (iblk1 V c 2 t) (iblk1 V c 0 t) (ix2 p q)
    = Cert.Bilinear.score (xtArr V c) (yArr V c) (myArr V c) (((cfg1.win 3).blk t).view.emb (ix2 p q))
  refine (pay1_apply (iblk1 V c 1 t) (iblk1 V c 2 t) (iblk1 V c 0 t) p q).trans ?_
  unfold Cert.Bilinear.score
  refine congrArg Ideal.logistic (Finset.sum_congr rfl fun k _ => ?_)
  have h0 : ((cfg1.win 0).blk t).view.emb (ix2 p k) = ix2 ((((cfg1.win 3).blk t).view.emb (ix2 p q)) 0 : Fin 8192) k := by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 512 + 1 * k.val = k.val; omega
  have h1 : ((cfg1.win 1).blk t).view.emb (ix2 q k) = ix2 ((((cfg1.win 3).blk t).view.emb (ix2 p q)) 1 : Fin 8192) k := by
    funext a; apply Fin.ext
    match a with
    | ⟨0, _⟩ => show win1_1.index t (0 : Fin 2) * 1024 + 1 * q.val = win1_3.index t (1 : Fin 2) * 1024 + 1 * q.val; omega
    | ⟨1, _⟩ => show win1_1.index t (1 : Fin 2) * 512 + 1 * k.val = k.val; omega
  have h2 : ((cfg1.win 2).blk t).view.emb (ix2 q k) = ix2 ((((cfg1.win 3).blk t).view.emb (ix2 p q)) 1 : Fin 8192) k := by
    funext a; apply Fin.ext
    match a with
    | ⟨0, _⟩ => show win1_2.index t (0 : Fin 2) * 1024 + 1 * q.val = win1_3.index t (1 : Fin 2) * 1024 + 1 * q.val; omega
    | ⟨1, _⟩ => show win1_2.index t (1 : Fin 2) * 512 + 1 * k.val = k.val; omega
  exact congrArg₂ (· * ·) (congrArg (xtArr V c) h0) (congrArg₂ (· * ·) (congrArg (yArr V c) h1) (congrArg (myArr V c) h2))

/-- An index of the scores is in point t's tile iff each coordinate is in the tile's range on its axis. -/
theorem mem_blk1 (t : Fin cfg1.N) (i : S8192x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v1).slice (win1_3.rect t)).set ↔ _
  rw [View.set_slice_whole, Rect.mem_set_unit]
  exact Iff.rfl

/-- The 64 tiles cover the scores, so the result array ends holding them. -/
theorem final1 (c : Dev nD) : (dat1 V c).arrAt 3 cfg1.N = Cert.Bilinear.score (xtArr V c) (yArr V c) (myArr V c) :=
  (dat1 V c).arrAt_eq_of_cover 3 _ (fun t _ => flushed1 V c t) fun i => by
    have hi0 : (i 0).val < 8192 := (i 0).isLt
    have hi1 : (i 1).val < 8192 := (i 1).isLt
    obtain ⟨t, ht⟩ : ∃ t : Fin cfg1.N, t.val = (i 0).val / 1024 * 8 + (i 1).val / 1024 :=
      ⟨⟨(i 0).val / 1024 * 8 + (i 1).val / 1024, by rw [show cfg1.N = 64 from N_1]; omega⟩, rfl⟩
    obtain ⟨-, -, -, -, -, -, e30, e31⟩ := idx_facts1 t
    refine ⟨t, flush1_3 t, ?_⟩
    rw [mem_blk1]
    intro a
    match a with
    | ⟨0, _⟩ => show win1_3.index t (0 : Fin 2) * 1024 ≤ (i 0).val ∧ (i 0).val < win1_3.index t (0 : Fin 2) * 1024 + 1024; omega
    | ⟨1, _⟩ => show win1_3.index t (1 : Fin 2) * 1024 ≤ (i 1).val ∧ (i 1).val < win1_3.index t (1 : Fin 2) * 1024 + 1024; omega

end Region1

/-! ## The two together: the result array after the run -/

section Whole
variable (m : (ℓ : Loc nD τ sig) → Buf (Elt Ideal) ℓ) (ρ : Dev nD → PrngReg)

/-- The specification at the launch contents of the arguments, on core c. -/
abbrev result (c : Dev nD) : Buf (Elt Ideal) ((c.tc : Thread nD τ).loc main_v1) :=
  Cert.Bilinear.score
    (Cert.Bilinear.proj (m ((c.tc : Thread nD τ).loc main_arg0)) (m ((c.tc : Thread nD τ).loc main_arg2)) (m ((c.tc : Thread nD τ).loc main_arg4)))
    (m ((c.tc : Thread nD τ).loc main_arg1)) (m ((c.tc : Thread nD τ).loc main_arg3))

/-- The second region finds the intermediate array at the projection the first one left, and the right side and its
    mask as launched (the first region does not touch them); so the result array ends at the specification. -/
theorem result_eq (c : Dev nD) : W2 m ρ c (Proc.devRef .tc main_v1) = result m c := by
  refine (W2_arr m ρ c 3).trans ?_
  refine (final1 (V1 m ρ) c).trans ?_
  have hxt : xtArr (V1 m ρ) c = Cert.Bilinear.proj (m ((c.tc : Thread nD τ).loc main_arg0)) (m ((c.tc : Thread nD τ).loc main_arg2)) (m ((c.tc : Thread nD τ).loc main_arg4)) :=
    (W1_arr m ρ c 3).trans (final0 (V0 m ρ) c)
  have hy : yArr (V1 m ρ) c = m ((c.tc : Thread nD τ).loc main_arg1) := W1_of_ne m ρ c main_arg1 (by decide)
  have hmy : myArr (V1 m ρ) c = m ((c.tc : Thread nD τ).loc main_arg3) := W1_of_ne m ρ c main_arg3 (by decide)
  rw [hxt, hy, hmy]

end Whole

end Cert.Bilinear.KernelValue

end
-- ==== Proof.RefValue.lean ====
/-
  The reference computes the specification. Its program multiplies each side by its mask, takes the two matrix
  products one after the other (each contracting the last axis of both operands), and spells the logistic as
  `1 / (1 + exp (−z))`, which on the extended reals is the logistic's definition. Read index by index, the
  reference's result is `score (proj x mask_x W) y mask_y`.
-/
import proofs.«109597_j32392643347090_1_alg».proof.Defs
import proofs.«109597_j32392643347090_1_alg».proof.Proof.Gen.ReferenceIdeal.Run
import proofs.«109597_j32392643347090_1_alg».proof.Proof.Gen.ReferenceIdeal.Read
import proofs.«109597_j32392643347090_1_alg».proof.Proof.Spec
import Idealize.ShloMosaic.Lib.IdealHost

noncomputable section

namespace Cert.Bilinear.RefValue

open Idealize.ShloMosaic Idealize.ShloMosaic.ValueIdx
open Cert.ReferenceIdeal Cert.ReferenceIdeal.Read
open scoped BigOperators

/-- The operand indices of the second product at result entry (n, m): row n of the projection, row m of the masked right side. -/
theorem lidx3 (n m : Fin 8192) (k : Fin 512) : lidx_main_v3 (ix2 n m) k = ix2 n k :=
  funext fun a => Fin.ext (by match a with | ⟨0, _⟩ => rfl | ⟨1, _⟩ => rfl)
theorem ridx3 (n m : Fin 8192) (k : Fin 512) : ridx_main_v3 (ix2 n m) k = ix2 m k :=
  funext fun a => Fin.ext (by match a with | ⟨0, _⟩ => rfl | ⟨1, _⟩ => rfl)
/-- The operand indices of the first product at result entry (n, k): row n of the masked left side, row k of the weight. -/
theorem lidx2 (n : Fin 8192) (k d : Fin 512) : lidx_main_v2 (ix2 n k) d = ix2 n d :=
  funext fun a => Fin.ext (by match a with | ⟨0, _⟩ => rfl | ⟨1, _⟩ => rfl)
theorem ridx2 (n : Fin 8192) (k d : Fin 512) : ridx_main_v2 (ix2 n k) d = ix2 k d :=
  funext fun a => Fin.ext (by match a with | ⟨0, _⟩ => rfl | ⟨1, _⟩ => rfl)

/-- The reference's projection stage is `proj`. -/
theorem v2_eq (x0 x2 : SRows.Idx → EReal) (x4 : SWeight.Idx → EReal) :
    val_main_v2 (F := Ideal) x0 x2 x4 = proj x0 x2 x4 := by
  funext i
  obtain ⟨n, k, rfl⟩ : ∃ (n : Fin 8192) (k : Fin 512), i = ix2 n k := ⟨i 0, i 1, eq_ix2 i⟩
  rw [val_main_v2_apply, proj_apply]
  refine Finset.sum_congr rfl fun d _ => ?_
  rw [val_main_v0_apply, lidx2, ridx2]
  rfl

/-- The reference's result is the specification. -/
theorem v9_eq (x0 x1 x2 x3 : SRows.Idx → EReal) (x4 : SWeight.Idx → EReal) :
    val_main_v9 (F := Ideal) x0 x1 x2 x3 x4 = score (proj x0 x2 x4) x1 x3 := by
  funext i
  obtain ⟨n, m, rfl⟩ : ∃ (n m : Fin 8192), i = ix2 n m := ⟨i 0, i 1, eq_ix2 i⟩
  rw [val_main_v9_apply, val_main_v8_apply, val_main_cst_0_apply, val_main_v7_apply, val_main_v6_apply, val_main_cst_apply,
    val_main_v5_apply, val_main_v4_apply, val_main_v3_apply, score_apply, v2_eq]
  show Ideal.div (Ideal.ofBits .f32 0x3F800000#32) (Ideal.ofBits .f32 0x3F800000#32 + Ideal.exp (-(∑ k : Fin 512, _))) = _
  rw [Ideal.ofBits_one_f32]
  unfold Ideal.logistic
  refine congrArg (fun z => Ideal.div 1 (1 + Ideal.exp (-z))) (Finset.sum_congr rfl fun k _ => ?_)
  rw [val_main_v1_apply, lidx3, ridx3]
  rfl

end Cert.Bilinear.RefValue

end
-- ==== Proof.lean ====
/-
  A bilinear discriminator with inverted dropout, two Pallas calls against plain jnp, over the extended reals:

      out[n, m] = σ ( ∑ k, ( ∑ d, x[n, d]·mask_x[n, d]·W[k, d] ) · ( y[m, k]·mask_y[m, k] ) ).

  The kernel computes the inner sum in a first call (row blocks of the left side against the whole weight) and the
  outer sum and the logistic σ in a second call (tiles of the scores); the reference takes the same two products over
  whole arrays and spells σ(z) as 1 / (1 + exp (−z)), which is the logistic's definition on the extended reals. The
  two programs group both sums in the same way, so the results agree entry by entry with no law of arithmetic beyond
  that definition; the inputs' finiteness is never used. The kernel's narrowing of its products' operands and of the
  intermediate array to bf16 is the identity on an extended real, and the idealization rewrote nothing, so the
  `preserves` conjunct is `True`.
-/
import proofs.«109597_j32392643347090_1_alg».proof.Defs
import proofs.«109597_j32392643347090_1_alg».proof.Proof.Gen.Kernel
import proofs.«109597_j32392643347090_1_alg».proof.Proof.Gen.Kernel.Frame
import proofs.«109597_j32392643347090_1_alg».proof.Proof.Gen.KernelIdeal
import proofs.«109597_j32392643347090_1_alg».proof.Proof.Gen.KernelIdeal.Frame
import proofs.«109597_j32392643347090_1_alg».proof.Proof.Gen.ReferenceIdeal
import proofs.«109597_j32392643347090_1_alg».proof.Proof.Gen.ReferenceIdeal.Run
import proofs.«109597_j32392643347090_1_alg».proof.Proof.Gen.ReferenceIdeal.Read
import proofs.«109597_j32392643347090_1_alg».proof.Proof.Gen.Pre_finite_inputs
import proofs.«109597_j32392643347090_1_alg».proof.Proof.KernelRun
import proofs.«109597_j32392643347090_1_alg».proof.Proof.KernelValue
import proofs.«109597_j32392643347090_1_alg».proof.Proof.RefValue
import Idealize.ShloMosaic.Adequacy
import Idealize.ShloMosaic.Init

noncomputable section

namespace Cert.Proof

open Idealize.ShloMosaic Idealize.SL.Sem

/-- The three programs run to the end, fault-free, their arguments unchanged. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at `score (proj x mask_x W) y mask_y` of the arguments: the
    kernel by its two calls' write-backs, the reference by its operations read index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bilinear.KernelValue.result m c, ?_, ?_⟩
  · exact (θ_run Cert.KernelIdeal.defs _ _).mono
      (fun r h c => ⟨(h c).1.trans (Cert.Bilinear.KernelValue.result_eq m ρ c), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.Bilinear.RefValue.v9_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
